-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x512x512 : Shape := ⟨4, ![32, 4, 512, 512]⟩
abbrev S_ : Shape := ⟨0, ![]⟩

class Facts : Prop where
  bcast_S_S32x4x512x512 : S_.BroadcastsInDim S32x4x512x512 (![] : Fin 0 → Fin S32x4x512x512.rank)
  reducesTo_S32x4x512x512_S_d0_1_2_3 : S32x4x512x512.ReducesTo [0, 1, 2, 3] S_
  h_S_ : 0 < S_.numel

variable [Facts]

def fn {F : FTy → Type} [FloatOps F] (main_arg0 : FVec F S32x4x512x512 .f32) : IVec S_ 1 :=
  let main_v0 : FVec F S32x4x512x512 .f32 := Host.absf main_arg0
  let main_cst : FVec F S_ .f32 := constant S_ .f32 0x7F800000#32
  let main_v1 : FVec F S32x4x512x512 .f32 := broadcastInDim S32x4x512x512 ![] bcast_S_S32x4x512x512 main_cst
  let main_v2 : IVec S32x4x512x512 1 := cmpf .olt main_v0 main_v1
  let main_c : IVec S_ 1 := constantI S_ 1 1#1
  let main_v3 : IVec S_ 1 := (fun x v => Host.reduce IntOp.andi x v reducesTo_S32x4x512x512_S_d0_1_2_3 h_S_) main_v2 main_c
  main_v3
-- ==== Kernel.lean ====
abbrev S32x4x512x512 : Shape := ⟨4, ![32, 4, 512, 512]⟩
abbrev S128x512x512 : Shape := ⟨3, ![128, 512, 512]⟩
abbrev S1x512x512 : Shape := ⟨3, ![1, 512, 512]⟩
abbrev S512x512 : Shape := ⟨2, ![512, 512]⟩
abbrev S512x3 : Shape := ⟨2, ![512, 3]⟩
abbrev S512x518 : Shape := ⟨2, ![512, 518]⟩
abbrev S3x512 : Shape := ⟨2, ![3, 512]⟩
abbrev S518x512 : Shape := ⟨2, ![518, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S32x4x512x512, .f32⟩
  | .hbm, ⟨1, _⟩ => ⟨S128x512x512, .f32⟩
  | .hbm, ⟨2, _⟩ => ⟨S128x512x512, .f32⟩
  | .hbm, ⟨3, _⟩ => ⟨S128x512x512, .f32⟩
  | .hbm, ⟨4, _⟩ => ⟨S128x512x512, .f32⟩
  | .hbm, ⟨5, _⟩ => ⟨S_, .f32⟩
  | .hbm, ⟨6, _⟩ => ⟨S128x512x512, .f32⟩
  | .hbm, ⟨7, _⟩ => ⟨S128x512x512, .i1⟩
  | .hbm, ⟨8, _⟩ => ⟨S128x512x512, .i1⟩
  | .hbm, ⟨9, _⟩ => ⟨S32x4x512x512, .i1⟩
  | .hbm, ⟨10, _⟩ => ⟨S32x4x512x512, .f32⟩
  | .hbm, ⟨11, _⟩ => ⟨S32x4x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | _, _ => ⟨S32x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x4x512x512_S128x512x512 : S32x4x512x512.ShapeCasts S128x512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  concatenates_S512x3_S512x512_S512x3_S512x518_d1 : Shape.Concatenates [S512x3, S512x512, S512x3] S512x518 1
  slices_S512x518_o0_0_S512x512 : S512x518.Slices ![0, 0] S512x512
  slices_S512x518_o0_1_S512x512 : S512x518.Slices ![0, 1] S512x512
  slices_S512x518_o0_2_S512x512 : S512x518.Slices ![0, 2] S512x512
  slices_S512x518_o0_3_S512x512 : S512x518.Slices ![0, 3] S512x512
  slices_S512x518_o0_4_S512x512 : S512x518.Slices ![0, 4] S512x512
  slices_S512x518_o0_5_S512x512 : S512x518.Slices ![0, 5] S512x512
  slices_S512x518_o0_6_S512x512 : S512x518.Slices ![0, 6] S512x512
  concatenates_S3x512_S512x512_S3x512_S518x512_d0 : Shape.Concatenates [S3x512, S512x512, S3x512] S518x512 0
  slices_S518x512_o0_0_S512x512 : S518x512.Slices ![0, 0] S512x512
  slices_S518x512_o1_0_S512x512 : S518x512.Slices ![1, 0] S512x512
  slices_S518x512_o2_0_S512x512 : S518x512.Slices ![2, 0] S512x512
  slices_S518x512_o3_0_S512x512 : S518x512.Slices ![3, 0] S512x512
  slices_S518x512_o4_0_S512x512 : S518x512.Slices ![4, 0] S512x512
  slices_S518x512_o5_0_S512x512 : S518x512.Slices ![5, 0] S512x512
  slices_S518x512_o6_0_S512x512 : S518x512.Slices ![6, 0] S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  broadcasts_S1x1_S512x512 : S1x1.Broadcasts S512x512
  natLt_1_32 : 1 < 32
  shapeCasts_S512x512_S1x512x512 : S512x512.ShapeCasts S1x512x512
  bcast_S_S128x512x512 : S_.BroadcastsInDim S128x512x512 (![] : Fin 0 → Fin S128x512x512.rank)
  shapeCasts_S128x512x512_S32x4x512x512 : S128x512x512.ShapeCasts S32x4x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S128x512x512.size a
  hwx0_0 : ∀ i : grid0.Coords, EltTy.bits .f32 = 32 ∨ (Rect.block (s := S128x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S128x512x512.size a
  hwx0_1 : ∀ i : grid0.Coords, EltTy.bits .f32 = 32 ∨ (Rect.block (s := S128x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S128x512x512.size a
  hwx0_2 : ∀ i : grid0.Coords, EltTy.bits .f32 = 32 ∨ (Rect.block (s := S128x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S128x512x512.size a
  hwx0_3 : ∀ i : grid0.Coords, EltTy.bits .f32 = 32 ∨ (Rect.block (s := S128x512x512) S1x512x512.size (cc0_transform_3 i) (hinb0_3 i)).WholeWords (EltTy.packing .f32)

variable [Facts₀]

abbrev win0_0 : Pipeline.Window sig grid0 :=
  Pipeline.Window.ofSpec (Memref.whole main_v0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x512x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_2) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4x512x512 : Shape := ⟨4, ![32, 4, 512, 512]⟩
abbrev S_ : Shape := ⟨0, ![]⟩
abbrev S32x4 : Shape := ⟨2, ![32, 4]⟩
abbrev S32x4x1x1 : Shape := ⟨4, ![32, 4, 1, 1]⟩

abbrev nBuf : Space → Nat
  | .hbm => 23
  | .vmem => 0
  | .smem => 0
  | _ => 0

abbrev bufTy : (tb : Table) → Fin (tcTables nBuf tb) → BufTy
  | .hbm, ⟨0, _⟩ => ⟨S32x4x512x512, .f32⟩
  | .hbm, ⟨1, _⟩ => ⟨S_, .f32⟩
  | .hbm, ⟨2, _⟩ => ⟨S_, .f32⟩
  | .hbm, ⟨3, _⟩ => ⟨S32x4x512x512, .f32⟩
  | .hbm, ⟨4, _⟩ => ⟨S_, .f32⟩
  | .hbm, ⟨5, _⟩ => ⟨S32x4, .f32⟩
  | .hbm, ⟨6, _⟩ => ⟨S32x4x1x1, .f32⟩
  | .hbm, ⟨7, _⟩ => ⟨S32x4x512x512, .i1⟩
  | .hbm, ⟨8, _⟩ => ⟨S_, .f32⟩
  | .hbm, ⟨9, _⟩ => ⟨S32x4x512x512, .f32⟩
  | .hbm, ⟨10, _⟩ => ⟨S32x4x512x512, .i1⟩
  | .hbm, ⟨11, _⟩ => ⟨S32x4x512x512, .i1⟩
  | .hbm, ⟨12, _⟩ => ⟨S_, .f32⟩
  | .hbm, ⟨13, _⟩ => ⟨S32x4x1x1, .f32⟩
  | .hbm, ⟨14, _⟩ => ⟨S32x4x1x1, .f32⟩
  | .hbm, ⟨15, _⟩ => ⟨S32x4x512x512, .f32⟩
  | .hbm, ⟨16, _⟩ => ⟨S32x4x512x512, .i1⟩
  | .hbm, ⟨17, _⟩ => ⟨S32x4x512x512, .i1⟩
  | .hbm, ⟨18, _⟩ => ⟨S_, .f32⟩
  | .hbm, ⟨19, _⟩ => ⟨S32x4x512x512, .f32⟩
  | .hbm, ⟨20, _⟩ => ⟨S32x4x512x512, .f32⟩
  | .hbm, ⟨21, _⟩ => ⟨S32x4x512x512, .f32⟩
  | .hbm, ⟨22, _⟩ => ⟨S32x4x512x512, .f32⟩
  | _, _ => ⟨S32x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S32x4x512x512_S32x4x512x512_w1s1p0_0_w1s1p0_0_w7s1p3_3_w7s1p3_3 : S32x4x512x512.ReduceWindows (![1, 1, 7, 7] : Fin 4 → Nat) ![1, 1, 1, 1] ![0, 0, 3, 3] ![0, 0, 3, 3] S32x4x512x512
  h_S_ : 0 < S_.numel
  reducesTo_S32x4x512x512_S32x4_d2_3 : S32x4x512x512.ReducesTo [2, 3] S32x4
  bcast_S32x4_S32x4x1x1_0_1 : S32x4.BroadcastsInDim S32x4x1x1 (![0, 1] : Fin 2 → Fin S32x4x1x1.rank)
  bcast_S_S32x4x512x512 : S_.BroadcastsInDim S32x4x512x512 (![] : Fin 0 → Fin S32x4x512x512.rank)
  bcast_S_S32x4x1x1 : S_.BroadcastsInDim S32x4x1x1 (![] : Fin 0 → Fin S32x4x1x1.rank)
  bcast_S32x4x1x1_S32x4x512x512_0_1_2_3 : S32x4x1x1.BroadcastsInDim S32x4x512x512 (![0, 1, 2, 3] : Fin 4 → Fin S32x4x512x512.rank)

variable [Facts₀]

class Facts : Prop extends Facts₀ where

variable [Facts]
-- ==== Proof.WindowMax.lean ====
/-
  Window maxima on the extended reals, characterised by their upper bounds.

  A maximum of finitely many extended reals lies below `M` exactly when every one of them does. Two ways of taking
  the maximum over a 7 × 7 neighbourhood of a 512 × 512 image padded with −∞ — seven shifted copies along the columns
  followed by seven shifted copies along the rows, or one fold over the 49 window positions — therefore agree: both
  lie below `M` exactly when every image entry within distance three in each coordinate does. The same holds for the
  maximum of the whole image taken row by row and then over the rows, against one fold over all entries.

  From these two maxima the peak mask, the kept values and the relative scores are defined entry by entry.
-/
import Idealize.ShloMosaic.PureOps.Ideal.Laws
import Idealize.ShloMosaic.Lib.ValueIdx

noncomputable section

namespace Cert.Peaks

open Idealize.ShloMosaic Idealize.ShloMosaic.ValueIdx

/-- Two positions differ by at most three. -/
def Near (a b : ℕ) : Prop := b ≤ a + 3 ∧ a ≤ b + 3

/-- The maximum of seven consecutive values `f q, …, f (q + 6)`, associated to the left. -/
def slide7 (f : ℕ → EReal) (q : ℕ) : EReal :=
  max (max (max (max (max (max (f (q + 0)) (f (q + 1))) (f (q + 2))) (f (q + 3))) (f (q + 4))) (f (q + 5))) (f (q + 6))

theorem slide7_le_iff (f : ℕ → EReal) (q : ℕ) (M : EReal) : slide7 f q ≤ M ↔ ∀ d, d < 7 → f (q + d) ≤ M := by
  unfold slide7
  simp only [max_le_iff]
  constructor
  · rintro ⟨⟨⟨⟨⟨⟨h0, h1⟩, h2⟩, h3⟩, h4⟩, h5⟩, h6⟩ d hd
    interval_cases d <;> assumption
  · intro h
    exact ⟨⟨⟨⟨⟨⟨h 0 (by omega), h 1 (by omega)⟩, h 2 (by omega)⟩, h 3 (by omega)⟩, h 4 (by omega)⟩, h 5 (by omega)⟩,
      h 6 (by omega)⟩

/-- A line of 512 values with three entries −∞ put before it and three after it. -/
def padv (g : Fin 512 → EReal) (j : ℕ) : EReal := if h : 3 ≤ j ∧ j < 515 then g ⟨j - 3, by omega⟩ else ⊥

/-- The maximum over the window of seven around `q` of the padded line is below `M` exactly when every entry of the
    line within distance three of `q` is: the padding is the bottom element and bounds nothing. -/
theorem win_le_iff (g : Fin 512 → EReal) (q : Fin 512) (M : EReal) :
    slide7 (padv g) q.val ≤ M ↔ ∀ q' : Fin 512, Near q.val q'.val → g q' ≤ M := by
  rw [slide7_le_iff]
  constructor
  · rintro h q' ⟨h1, h2⟩
    have hq := q'.isLt
    have h' := h (q'.val + 3 - q.val) (by omega)
    unfold padv at h'
    rw [dif_pos (by omega)] at h'
    have e : (⟨q.val + (q'.val + 3 - q.val) - 3, by omega⟩ : Fin 512) = q' := Fin.ext (by simp only; omega)
    rwa [e] at h'
  · intro h d hd
    unfold padv
    split
    · next hin => exact h ⟨q.val + d - 3, by omega⟩ ⟨by simp only; omega, by simp only; omega⟩
    · exact bot_le

/-- The maximum of an image over the 7 × 7 neighbourhood of `(p, q)` cut at the image's border. -/
def pool (img : Fin 512 → Fin 512 → EReal) (p q : Fin 512) : EReal :=
  ⨆ (p' : Fin 512) (q' : Fin 512) (_ : Near p.val p'.val ∧ Near q.val q'.val), img p' q'

theorem pool_le_iff (img : Fin 512 → Fin 512 → EReal) (p q : Fin 512) (M : EReal) :
    pool img p q ≤ M ↔ ∀ p' q' : Fin 512, Near p.val p'.val → Near q.val q'.val → img p' q' ≤ M := by
  unfold pool
  simp only [iSup_le_iff, and_imp]

/-- The maximum of the whole image. -/
def top (img : Fin 512 → Fin 512 → EReal) : EReal := ⨆ (p : Fin 512) (q : Fin 512), img p q

theorem top_le_iff (img : Fin 512 → Fin 512 → EReal) (M : EReal) : top img ≤ M ↔ ∀ p q : Fin 512, img p q ≤ M := by
  unfold top
  simp only [iSup_le_iff]

/-- Seven shifts along the columns, then seven along the rows, of the image padded with −∞: the neighbourhood's maximum. -/
theorem separable (img : Fin 512 → Fin 512 → EReal) (p q : Fin 512) :
    slide7 (padv fun r => slide7 (padv (img r)) q.val) p.val = pool img p q := by
  refine eq_of_forall_ge_iff fun M => ?_
  rw [win_le_iff, pool_le_iff]
  simp only [win_le_iff]
  exact ⟨fun h p' q' hp hq => h p' hp q' hq, fun h p' hp q' hq => h p' q' hp hq⟩

/-- A left fold of `max` over a list is below `M` exactly when its start and every term are. -/
theorem foldl_max_le_iff {β : Type} (g : β → EReal) (l : List β) (v M : EReal) :
    l.foldl (fun r n => max r (g n)) v ≤ M ↔ v ≤ M ∧ ∀ n ∈ l, g n ≤ M := by
  induction l generalizing v with
  | nil => simp
  | cons a l ih =>
    rw [List.foldl_cons, ih, max_le_iff]
    simp only [List.mem_cons, forall_eq_or_imp, and_assoc]

/-- The same for the ideal maximum of 32-bit floats, which is `max`. -/
theorem foldl_maximumf_le_iff {β : Type} (g : β → EReal) (l : List β) (v M : EReal) :
    l.foldl (fun r n => FloatOps.maximumf (F := Ideal) (φ := .f32) r (g n)) v ≤ M ↔ v ≤ M ∧ ∀ n ∈ l, g n ≤ M :=
  foldl_max_le_iff g l v M

/-- A fold of the ideal maximum over a finite set is below `M` exactly when its start and every term are. -/
theorem fold_maximumf_le_iff {ι : Type} (s : Finset ι) (b : EReal) (f : ι → EReal) (M : EReal) :
    s.fold (FloatOps.maximumf (F := Ideal) (φ := .f32)) b f ≤ M ↔ b ≤ M ∧ ∀ x ∈ s, f x ≤ M :=
  Finset.fold_max_le M

/-- The 32-bit pattern of −∞ denotes the bottom element. -/
theorem negInf : Ideal.ofBits .f32 0xFF800000#32 = (⊥ : EReal) := by simp [Ideal.ofBits, Ideal.ieee]

/-- The peak mask at `(p, q)`: the entry is its neighbourhood's maximum, exceeds the absolute threshold, and exceeds
    the relative threshold times the image's maximum. The two thresholds are the 32-bit patterns both programs carry. -/
def peak (img : Fin 512 → Fin 512 → EReal) (p q : Fin 512) : BitVec 1 :=
  IntOp.andi (IntOp.andi (Ideal.cmp .oeq (pool img p q) (img p q)) (Ideal.cmp .ogt (img p q) (Ideal.ofBits .f32 0x3E4CCCCD#32)))
    (Ideal.cmp .ogt (img p q) (Ideal.ofBits .f32 0x3D4CCCCD#32 * top img))

/-- The entry where the mask is set, zero elsewhere. -/
def kept (img : Fin 512 → Fin 512 → EReal) (p q : Fin 512) : EReal :=
  Scalar.select (peak img p q) (img p q) (Ideal.ofBits .f32 0x00000000#32)

/-- The kept value divided by the image's maximum. -/
def rel (img : Fin 512 → Fin 512 → EReal) (p q : Fin 512) : EReal :=
  Ideal.div (kept img p q) (top img)

/-! ## The three results over the whole `[32, 4, 512, 512]` array -/

/-- The image at batch `b`, channel `c`. -/
abbrev imgAt (x0 : (⟨4, ![32, 4, 512, 512]⟩ : Shape).Idx → EReal) (b : Fin 32) (c : Fin 4) : Fin 512 → Fin 512 → EReal :=
  fun p q => x0 (ix4 b c p q)

/-- The peak mask of every image. -/
def maskOf (x0 : (⟨4, ![32, 4, 512, 512]⟩ : Shape).Idx → EReal) : (⟨4, ![32, 4, 512, 512]⟩ : Shape).Idx → BitVec 1 :=
  fun i => peak (imgAt x0 (i 0) (i 1)) (i 2) (i 3)

/-- The kept values of every image. -/
def keptOf (x0 : (⟨4, ![32, 4, 512, 512]⟩ : Shape).Idx → EReal) : (⟨4, ![32, 4, 512, 512]⟩ : Shape).Idx → EReal :=
  fun i => kept (imgAt x0 (i 0) (i 1)) (i 2) (i 3)

/-- The relative scores of every image. -/
def relOf (x0 : (⟨4, ![32, 4, 512, 512]⟩ : Shape).Idx → EReal) : (⟨4, ![32, 4, 512, 512]⟩ : Shape).Idx → EReal :=
  fun i => rel (imgAt x0 (i 0) (i 1)) (i 2) (i 3)

end Cert.Peaks

end
-- ==== Proof.BlockValues.lean ====
/-
  One 512 × 512 block through the kernel's body, entry by entry, on the extended reals.
-/
import proofs.«149638_j37005438222881_1_alg».proof.Proof.Gen.KernelIdeal.Skeleton
import proofs.«149638_j37005438222881_1_alg».proof.Proof.WindowMax
import Idealize.ShloMosaic.Lib.Pipeline.Value
import Idealize.ShloMosaic.Lib.ValueIdx
import Idealize.ShloMosaic.PureOps.Ideal.Laws

noncomputable section

namespace Cert.KernelIdeal.Block

open Idealize.ShloMosaic Idealize.ShloMosaic.ValueIdx Cert.KernelIdeal Cert.KernelIdeal.Gen Cert.Peaks

/-- The image a block `[1, 512, 512]` holds. -/
abbrev imgOf (v0 : Vec Ideal S1x512x512 .f32) : Fin 512 → Fin 512 → EReal := fun p q => v0 (ix3 0 p q)

/-- Dropping the block's unit axis keeps the entry at `(p, q)`. -/
theorem dropUnit_apply {α : Type} (v : S1x512x512.Idx → α) (h : S1x512x512.ShapeCasts S512x512) (p q : Fin 512) :
    shapeCast S512x512 v h (ix2 p q) = v (ix3 0 p q) := by
  refine (shapeCast_dropUnit_apply ![512, 512] v h (ix2 p q)).trans (congrArg v ?_)
  funext a
  match a with
  | ⟨0, _⟩ => rfl
  | ⟨1, _⟩ => rfl
  | ⟨2, _⟩ => rfl

/-- Adding it back likewise. -/
theorem addUnit_apply {α : Type} (v : S512x512.Idx → α) (h : S512x512.ShapeCasts S1x512x512) (p q : Fin 512) :
    shapeCast S1x512x512 v h (ix3 0 p q) = v (ix2 p q) := by
  refine (shapeCast_addUnit_apply ![512, 512] v h (ix3 0 p q)).trans (congrArg v ?_)
  funext a
  match a with
  | ⟨0, _⟩ => rfl
  | ⟨1, _⟩ => rfl

/-- Three columns of `c` before and after a 512 × 512 array, read at `(p, j)`. -/
theorem colpad_apply {α : Type} (x : S512x512.Idx → α) (c : α)
    (h : Shape.Concatenates (([⟨S512x3, broadcast S512x3 c⟩, ⟨S512x512, x⟩, ⟨S512x3, broadcast S512x3 c⟩] :
      List ((s : Shape) × (s.Idx → α))).map (·.1)) S512x518 1) (p : Fin 512) (j : Fin 518) :
    concatenate S512x518 1 [⟨S512x3, broadcast S512x3 c⟩, ⟨S512x512, x⟩, ⟨S512x3, broadcast S512x3 c⟩] h (ix2 p j)
      = if hj : 3 ≤ j.val ∧ j.val < 515 then x (ix2 p ⟨j.val - 3, by omega⟩) else c := by
  have hjlt := j.isLt
  by_cases h0 : j.val < 3
  · rw [dif_neg (by omega)]
    exact concatenate_apply_piece (1 : Fin S512x518.rank) _ h (ix2 p j) 0 (by simp) S512x3 (broadcast S512x3 c) rfl rfl 0 rfl
      (ix2 p ⟨j.val, h0⟩) (fun b hb => match b with | ⟨0, _⟩ => rfl | ⟨1, _⟩ => absurd rfl hb) (Nat.zero_add _)
  · by_cases h1 : j.val < 515
    · rw [dif_pos ⟨by omega, h1⟩]
      exact concatenate_apply_piece (1 : Fin S512x518.rank) _ h (ix2 p j) 1 (by simp) S512x512 x rfl rfl 3 rfl
        (ix2 p ⟨j.val - 3, by omega⟩) (fun b hb => match b with | ⟨0, _⟩ => rfl | ⟨1, _⟩ => absurd rfl hb)
        (by show 3 + (j.val - 3) = j.val; omega)
    · rw [dif_neg (by omega)]
      exact concatenate_apply_piece (1 : Fin S512x518.rank) _ h (ix2 p j) 2 (by simp) S512x3 (broadcast S512x3 c) rfl rfl 515 rfl
        (ix2 p ⟨j.val - 515, by omega⟩) (fun b hb => match b with | ⟨0, _⟩ => rfl | ⟨1, _⟩ => absurd rfl hb)
        (by show 515 + (j.val - 515) = j.val; omega)

/-- Three rows of `c` above and below a 512 × 512 array, read at `(i, q)`. -/
theorem rowpad_apply {α : Type} (x : S512x512.Idx → α) (c : α)
    (h : Shape.Concatenates (([⟨S3x512, broadcast S3x512 c⟩, ⟨S512x512, x⟩, ⟨S3x512, broadcast S3x512 c⟩] :
      List ((s : Shape) × (s.Idx → α))).map (·.1)) S518x512 0) (i : Fin 518) (q : Fin 512) :
    concatenate S518x512 0 [⟨S3x512, broadcast S3x512 c⟩, ⟨S512x512, x⟩, ⟨S3x512, broadcast S3x512 c⟩] h (ix2 i q)
      = if hi : 3 ≤ i.val ∧ i.val < 515 then x (ix2 ⟨i.val - 3, by omega⟩ q) else c := by
  have hilt := i.isLt
  by_cases h0 : i.val < 3
  · rw [dif_neg (by omega)]
    exact concatenate_apply_piece (0 : Fin S518x512.rank) _ h (ix2 i q) 0 (by simp) S3x512 (broadcast S3x512 c) rfl rfl 0 rfl
      (ix2 ⟨i.val, h0⟩ q) (fun b hb => match b with | ⟨0, _⟩ => absurd rfl hb | ⟨1, _⟩ => rfl) (Nat.zero_add _)
  · by_cases h1 : i.val < 515
    · rw [dif_pos ⟨by omega, h1⟩]
      exact concatenate_apply_piece (0 : Fin S518x512.rank) _ h (ix2 i q) 1 (by simp) S512x512 x rfl rfl 3 rfl
        (ix2 ⟨i.val - 3, by omega⟩ q) (fun b hb => match b with | ⟨0, _⟩ => absurd rfl hb | ⟨1, _⟩ => rfl)
        (by show 3 + (i.val - 3) = i.val; omega)
    · rw [dif_neg (by omega)]
      exact concatenate_apply_piece (0 : Fin S518x512.rank) _ h (ix2 i q) 2 (by simp) S3x512 (broadcast S3x512 c) rfl rfl 515 rfl
        (ix2 ⟨i.val - 515, by omega⟩ q) (fun b hb => match b with | ⟨0, _⟩ => absurd rfl hb | ⟨1, _⟩ => rfl)
        (by show 515 + (i.val - 515) = i.val; omega)

/-! ## Seven shifted copies and their maximum -/

/-- The maximum of the seven column shifts of a 512 × 518 array. -/
def hmax7 (y : FVec Ideal S512x518 .f32) : FVec Ideal S512x512 .f32 :=
  maximumf (maximumf (maximumf (maximumf (maximumf (maximumf ((extractStridedSlice S512x512 ![0, 0] y slices_S512x518_o0_0_S512x512))
    (extractStridedSlice S512x512 ![0, 1] y slices_S512x518_o0_1_S512x512))
    (extractStridedSlice S512x512 ![0, 2] y slices_S512x518_o0_2_S512x512))
    (extractStridedSlice S512x512 ![0, 3] y slices_S512x518_o0_3_S512x512))
    (extractStridedSlice S512x512 ![0, 4] y slices_S512x518_o0_4_S512x512))
    (extractStridedSlice S512x512 ![0, 5] y slices_S512x518_o0_5_S512x512))
    (extractStridedSlice S512x512 ![0, 6] y slices_S512x518_o0_6_S512x512)

/-- The maximum of the seven row shifts of a 518 × 512 array. -/
def vmax7 (y : FVec Ideal S518x512 .f32) : FVec Ideal S512x512 .f32 :=
  maximumf (maximumf (maximumf (maximumf (maximumf (maximumf ((extractStridedSlice S512x512 ![0, 0] y slices_S518x512_o0_0_S512x512))
    (extractStridedSlice S512x512 ![1, 0] y slices_S518x512_o1_0_S512x512))
    (extractStridedSlice S512x512 ![2, 0] y slices_S518x512_o2_0_S512x512))
    (extractStridedSlice S512x512 ![3, 0] y slices_S518x512_o3_0_S512x512))
    (extractStridedSlice S512x512 ![4, 0] y slices_S518x512_o4_0_S512x512))
    (extractStridedSlice S512x512 ![5, 0] y slices_S518x512_o5_0_S512x512))
    (extractStridedSlice S512x512 ![6, 0] y slices_S518x512_o6_0_S512x512)

/-- A column shift by `d` read at `(p, q)` is the array at `(p, q + d)`. -/
theorem hslice_apply {α : Type} (y : S512x518.Idx → α) (d : ℕ) (hS : S512x518.Slices ![0, d] S512x512) (p q : Fin 512)
    (hd : q.val + d < 518) : extractStridedSlice S512x512 ![0, d] y hS (ix2 p q) = y (ix2 p ⟨q.val + d, hd⟩) :=
  extractStridedSlice_apply ![0, d] y hS (ix2 p q) (ix2 p ⟨q.val + d, hd⟩) fun a => match a with
    | ⟨0, _⟩ => by show p.val = 0 + p.val; omega
    | ⟨1, _⟩ => by show q.val + d = d + q.val; omega

/-- A row shift by `d` read at `(p, q)` is the array at `(p + d, q)`. -/
theorem vslice_apply {α : Type} (y : S518x512.Idx → α) (d : ℕ) (hS : S518x512.Slices ![d, 0] S512x512) (p q : Fin 512)
    (hd : p.val + d < 518) : extractStridedSlice S512x512 ![d, 0] y hS (ix2 p q) = y (ix2 ⟨p.val + d, hd⟩ q) :=
  extractStridedSlice_apply ![d, 0] y hS (ix2 p q) (ix2 ⟨p.val + d, hd⟩ q) fun a => match a with
    | ⟨0, _⟩ => by show p.val + d = d + p.val; omega
    | ⟨1, _⟩ => by show q.val = 0 + q.val; omega

/-- Along a row whose entries are `f` of the column, the seven shifts' maximum is the window maximum of `f`. -/
theorem hmax7_apply (y : FVec Ideal S512x518 .f32) (f : ℕ → EReal) (p : Fin 512) (hf : ∀ j : Fin 518, y (ix2 p j) = f j.val)
    (q : Fin 512) : hmax7 y (ix2 p q) = slide7 f q.val := by
  have hq := q.isLt
  unfold hmax7 slide7
  simp only [maximumf_apply]
  rw [hslice_apply y 0 _ p q (by omega), hslice_apply y 1 _ p q (by omega), hslice_apply y 2 _ p q (by omega),
    hslice_apply y 3 _ p q (by omega), hslice_apply y 4 _ p q (by omega), hslice_apply y 5 _ p q (by omega),
    hslice_apply y 6 _ p q (by omega)]
  simp only [hf]

/-- Down a column whose entries are `f` of the row, the seven shifts' maximum is the window maximum of `f`. -/
theorem vmax7_apply (y : FVec Ideal S518x512 .f32) (f : ℕ → EReal) (q : Fin 512) (hf : ∀ i : Fin 518, y (ix2 i q) = f i.val)
    (p : Fin 512) : vmax7 y (ix2 p q) = slide7 f p.val := by
  have hp := p.isLt
  unfold vmax7 slide7
  simp only [maximumf_apply]
  rw [vslice_apply y 0 _ p q (by omega), vslice_apply y 1 _ p q (by omega), vslice_apply y 2 _ p q (by omega),
    vslice_apply y 3 _ p q (by omega), vslice_apply y 4 _ p q (by omega), vslice_apply y 5 _ p q (by omega),
    vslice_apply y 6 _ p q (by omega)]
  simp only [hf]

/-! ## The padded arrays -/

/-- The pattern of −∞ as a scalar of the body. -/
theorem negInfS : (Scalar.ofBits .f32 0xFF800000#32 : Ideal .f32) = (⊥ : EReal) := negInf

/-- A 512 × 512 array with three columns of −∞ on either side. -/
def colpad (x : FVec Ideal S512x512 .f32) : FVec Ideal S512x518 .f32 :=
  concatenate S512x518 1 [⟨S512x3, broadcast S512x3 (Scalar.ofBits .f32 0xFF800000#32)⟩, ⟨S512x512, x⟩,
    ⟨S512x3, broadcast S512x3 (Scalar.ofBits .f32 0xFF800000#32)⟩] concatenates_S512x3_S512x512_S512x3_S512x518_d1

/-- A 512 × 512 array with three rows of −∞ above and below. -/
def rowpad (x : FVec Ideal S512x512 .f32) : FVec Ideal S518x512 .f32 :=
  concatenate S518x512 0 [⟨S3x512, broadcast S3x512 (Scalar.ofBits .f32 0xFF800000#32)⟩, ⟨S512x512, x⟩,
    ⟨S3x512, broadcast S3x512 (Scalar.ofBits .f32 0xFF800000#32)⟩] concatenates_S3x512_S512x512_S3x512_S518x512_d0

theorem colpad_padv (x : FVec Ideal S512x512 .f32) (p : Fin 512) (j : Fin 518) :
    colpad x (ix2 p j) = padv (fun q' => x (ix2 p q')) j.val := by
  unfold colpad
  rw [colpad_apply, negInfS]
  rfl

theorem rowpad_padv (x : FVec Ideal S512x512 .f32) (i : Fin 518) (q : Fin 512) :
    rowpad x (ix2 i q) = padv (fun r => x (ix2 r q)) i.val := by
  unfold rowpad
  rw [rowpad_apply, negInfS]
  rfl

/-- Columns first, rows second: the 7 × 7 neighbourhood's maximum at every entry. -/
def poolVec (x : FVec Ideal S512x512 .f32) : FVec Ideal S512x512 .f32 := vmax7 (rowpad (hmax7 (colpad x)))

theorem poolVec_apply (x : FVec Ideal S512x512 .f32) (p q : Fin 512) :
    poolVec x (ix2 p q) = pool (fun p' q' => x (ix2 p' q')) p q := by
  unfold poolVec
  rw [vmax7_apply _ (padv fun r => hmax7 (colpad x) (ix2 r q)) q (fun i => rowpad_padv _ i q) p,
    ← separable (fun p' q' => x (ix2 p' q')) p q]
  congr 2
  funext r
  exact hmax7_apply (colpad x) _ r (fun j => colpad_padv x r j) q

/-! ## The block's maximum -/

instance : Subsingleton S1.Idx := ⟨fun a b => funext fun d => match d with | ⟨0, _⟩ => Subsingleton.elim (α := Fin 1) _ _⟩

/-- The image without its unit axis is the block's image. -/
theorem pay5_apply (v0 : Vec Ideal S1x512x512 .f32) (p q : Fin 512) : k0_pay5 (F := Ideal) v0 (ix2 p q) = imgOf v0 p q := by
  unfold k0_pay5
  exact dropUnit_apply v0 _ p q

theorem pay5_img (v0 : Vec Ideal S1x512x512 .f32) : (fun p' q' => k0_pay5 (F := Ideal) v0 (ix2 p' q')) = imgOf v0 :=
  funext fun p => funext fun q => pay5_apply v0 p q

/-- A maximum over lanes from −∞ is below `M` exactly when every source entry that reduces to the lane is. -/
theorem lanes_le_iff {s t : Shape} {axes : List (Fin s.rank)} (src : FVec Ideal s .f32) (h : s.Reduces axes t)
    (hφ : FKind.Formats .f32) (hacc : (0xFF800000#32 : BitVec 32) = FKind.maximumf.neutral .f32 hφ) (j : t.Idx) (M : EReal) :
    multiReduction .maximumf axes t src 0xFF800000#32 h hφ hacc j ≤ M ↔ ∀ i : s.Idx, h.drop i = j → src i ≤ M := by
  rw [multiReduction_maximumf_eq_fold, fold_maximumf_le_iff,
    show (FloatOps.ofBits (F := Ideal) .f32 0xFF800000#32 : EReal) = ⊥ from negInf]
  simp only [bot_le, true_and, Finset.mem_filter, Finset.mem_univ]

/-- The row maxima's maximum is below `M` exactly when every entry is. -/
theorem pay6_le_iff (v0 : Vec Ideal S1x512x512 .f32) (k : S1x1.Idx) (M : EReal) :
    k0_pay6 (F := Ideal) v0 k ≤ M ↔ ∀ i : S512x512.Idx, k0_pay5 (F := Ideal) v0 i ≤ M := by
  unfold k0_pay6
  dsimp only
  refine (lanes_le_iff (t := S1) _ reduces_S512x1_S1 _ _ _ M).trans ?_
  constructor
  · intro h i
    have h1 := h ((Shape.reshapeEquiv shapeCasts_S512_S512x1).symm (ix1 (i 0))) (Subsingleton.elim _ _)
    have h2 : multiReduction .maximumf [1] S512 (k0_pay5 (F := Ideal) v0) 0xFF800000#32 reduces_S512x512_S512 (.inl rfl) rfl
        (ix1 (i 0)) ≤ M := by
      have e := Equiv.apply_symm_apply (Shape.reshapeEquiv shapeCasts_S512_S512x1) (ix1 (i 0))
      unfold shapeCast at h1
      rw [e] at h1
      exact h1
    refine (lanes_le_iff _ reduces_S512x512_S512 _ _ _ M).mp h2 i ?_
    funext a
    match a with
    | ⟨0, _⟩ => rfl
  · intro h i _
    unfold shapeCast
    exact (lanes_le_iff _ reduces_S512x512_S512 _ _ _ M).mpr (fun i' _ => h i')

/-- The block's maximum, taken row by row and then over the rows, is the image's maximum. -/
theorem pay6_eq_top (v0 : Vec Ideal S1x512x512 .f32) (k : S1x1.Idx) : k0_pay6 (F := Ideal) v0 k = top (imgOf v0) := by
  refine eq_of_forall_ge_iff fun M => ?_
  rw [pay6_le_iff, top_le_iff]
  constructor
  · intro h p q
    rw [← pay5_apply]
    exact h _
  · intro h i
    obtain ⟨p, q, rfl⟩ : ∃ (p q : Fin 512), i = ix2 p q := ⟨i 0, i 1, eq_ix2 i⟩
    rw [pay5_apply]
    exact h p q

/-! ## The mask and the three stored values at an entry -/

/-- The body's mask is the conjunction of its three tests, with the pooled block named. -/
theorem pay7_eq (v0 : Vec Ideal S1x512x512 .f32) :
    k0_pay7 (F := Ideal) v0 = andi (andi (cmpf .oeq (poolVec (k0_pay5 v0)) (k0_pay5 v0))
        (cmpf .ogt (k0_pay5 v0) (broadcast S512x512 (Scalar.ofBits .f32 0x3E4CCCCD#32))))
      (cmpf .ogt (k0_pay5 v0) (broadcastTo S512x512 (mulf (broadcast S1x1 (Scalar.ofBits .f32 0x3D4CCCCD#32)) (k0_pay6 v0))
        broadcasts_S1x1_S512x512)) := rfl

/-- A 1 × 1 array spread over the block reads its one entry everywhere. -/
theorem spread_apply {α : Type} (z : S1x1.Idx → α) (h : S1x1.Broadcasts S512x512) (p q : Fin 512) :
    broadcastTo S512x512 z h (ix2 p q) = z (ix2 0 0) :=
  broadcastTo_apply z h (ix2 p q) (ix2 0 0) fun a => match a with
    | ⟨0, _⟩ => by show 0 = if (1 : ℕ) = 1 then 0 else _; rw [if_pos rfl]
    | ⟨1, _⟩ => by show 0 = if (1 : ℕ) = 1 then 0 else _; rw [if_pos rfl]

theorem pool_block (v0 : Vec Ideal S1x512x512 .f32) (p q : Fin 512) :
    poolVec (k0_pay5 (F := Ideal) v0) (ix2 p q) = pool (imgOf v0) p q := by
  rw [poolVec_apply, pay5_img]

theorem scaled_top (v0 : Vec Ideal S1x512x512 .f32) (p q : Fin 512) :
    broadcastTo S512x512 (mulf (broadcast S1x1 (Scalar.ofBits .f32 0x3D4CCCCD#32)) (k0_pay6 (F := Ideal) v0))
      broadcasts_S1x1_S512x512 (ix2 p q) = Ideal.ofBits .f32 0x3D4CCCCD#32 * top (imgOf v0) := by
  rw [spread_apply, mulf_apply, broadcast_apply, pay6_eq_top]
  rfl

theorem pay7_apply (v0 : Vec Ideal S1x512x512 .f32) (p q : Fin 512) :
    k0_pay7 (F := Ideal) v0 (ix2 p q) = peak (imgOf v0) p q := by
  rw [pay7_eq]
  unfold peak
  rw [← pool_block v0 p q, ← scaled_top v0 p q, ← pay5_apply v0 p q]
  rfl

/-- The mask as a float: one where set, zero elsewhere. -/
theorem maskBlock (v0 : Vec Ideal S1x512x512 .f32) (p q : Fin 512) :
    k0_pay2 (F := Ideal) (k0_pay7 v0) (ix3 0 p q) = FloatOps.sitofp (F := Ideal) .f32 ((peak (imgOf v0) p q).setWidth 32) := by
  unfold k0_pay2
  rw [addUnit_apply, sitofp_apply, extui_apply, pay7_apply]

theorem keptBlock (v0 : Vec Ideal S1x512x512 .f32) (p q : Fin 512) :
    k0_pay3 (F := Ideal) (k0_pay5 v0) (k0_pay7 v0) (Scalar.ofBits .f32 0x00000000#32) (ix3 0 p q) = kept (imgOf v0) p q := by
  unfold k0_pay3 k0_pay1
  rw [addUnit_apply, select_apply, pay7_apply, pay5_apply, broadcast_apply]
  rfl

theorem relBlock (v0 : Vec Ideal S1x512x512 .f32) (p q : Fin 512) :
    k0_pay4 (F := Ideal) (k0_pay5 v0) (k0_pay6 v0) (k0_pay7 v0) (Scalar.ofBits .f32 0x00000000#32) (ix3 0 p q) = rel (imgOf v0) p q := by
  unfold k0_pay4 k0_pay1
  rw [addUnit_apply, divf_apply, select_apply, spread_apply, pay7_apply, pay5_apply, broadcast_apply, pay6_eq_top]
  rfl

end Cert.KernelIdeal.Block

end
-- ==== Proof.KernelArrays.lean ====
/-
  From blocks to arrays. Grid point `t` stages image `t` of the `[128, 512, 512]` operand and writes image `t` of
  each of the three results; the 128 blocks tile each result, so after the run every result array is one function of the
  operand, entry by entry: the mask as a float, the kept values and the relative scores of the image the entry lies in.
-/
import proofs.«149638_j37005438222881_1_alg».proof.Proof.Gen.KernelIdeal.Frame
import proofs.«149638_j37005438222881_1_alg».proof.Proof.BlockValues
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Block Cert.Peaks Idealize.ShloMosaic.ValueIdx

variable (m : (ℓ : Loc nD τ sig) → Buf (Elt Ideal) ℓ) (ρ : Dev nD → PrngReg)

theorem hz3 : (![0, 0, 0] : Fin 3 → Nat) = fun _ => 0 := funext fun a => by fin_cases a <;> rfl

/-- Image `n` of a `[128, 512, 512]` array. -/
abbrev imgN (a : S128x512x512.Idx → EReal) (n : Fin 128) : Fin 512 → Fin 512 → EReal := fun p q => a (ix3 n p q)

/-- The mask of every image, as a float. -/
def maskArr (a : S128x512x512.Idx → EReal) : S128x512x512.Idx → EReal :=
  fun i => FloatOps.sitofp (F := Ideal) .f32 ((peak (imgN a (i 0)) (i 1) (i 2)).setWidth 32)

/-- The kept values of every image. -/
def keptArr (a : S128x512x512.Idx → EReal) : S128x512x512.Idx → EReal := fun i => kept (imgN a (i 0)) (i 1) (i 2)

/-- The relative scores of every image. -/
def relArr (a : S128x512x512.Idx → EReal) : S128x512x512.Idx → EReal := fun i => rel (imgN a (i 0)) (i 1) (i 2)

/-- Every window's block index at point `t` is `(t, 0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

theorem lt128 (t : Fin cfg0.N) : t.val < 128 := lt_of_lt_of_eq t.isLt (N_0 : cfg0.N = 128)

/-- The staged block at point `t` holds image `t` of the operand. -/
theorem iblk_img (c : Dev nD) (t : Fin cfg0.N) :
    imgOf (iblk m c 0 t) = imgN (V m c main_v0) ⟨t.val, lt128 t⟩ := by
  obtain ⟨⟨e0, e1, e2⟩, -⟩ := idx_facts t
  funext p q
  show (iblk m c 0 t : Vec Ideal S1x512x512 .f32) (ix3 0 p q) = (V m c main_v0 : S128x512x512.Idx → EReal) (ix3 ⟨t.val, lt128 t⟩ p q)
  unfold iblk
  rw [View.read_apply]
  show V m c main_v0 _ = V m c main_v0 _
  congr 1
  funext a
  apply Fin.ext
  match a with
  | ⟨0, _⟩ => show win0_0.index t 0 * 1 + 1 * 0 = t.val; omega
  | ⟨1, _⟩ => show win0_0.index t 1 * 512 + 1 * p.val = p.val; omega
  | ⟨2, _⟩ => show win0_0.index t 2 * 512 + 1 * q.val = q.val; omega

/-- An index of a `[1, 512, 512]` block is `(0, p, q)`. -/
theorem blockIdx (j : S1x512x512.Idx) : ∃ (p q : Fin 512), j = ix3 0 p q :=
  ⟨j 1, j 2, funext fun a => match a with
    | ⟨0, _⟩ => Subsingleton.elim (α := Fin 1) _ _
    | ⟨1, _⟩ => rfl
    | ⟨2, _⟩ => rfl⟩

/-! ## Result window 1 -/

/-- Block `(0, p, q)` of window 1 at point `t` lies at `(t, p, q)` of its array. -/
theorem emb1 (t : Fin cfg0.N) (p q : Fin 512) :
    ((cfg0.win 1).blk t).view.emb (ix3 0 p q) = (ix3 ⟨t.val, lt128 t⟩ p q : S128x512x512.Idx) := by
  obtain ⟨-, ⟨e0, e1, e2⟩, -, -⟩ := idx_facts t
  funext a
  apply Fin.ext
  match a with
  | ⟨0, _⟩ => show win0_1.index t 0 * 1 + 1 * 0 = t.val; omega
  | ⟨1, _⟩ => show win0_1.index t 1 * 512 + 1 * p.val = p.val; omega
  | ⟨2, _⟩ => show win0_1.index t 2 * 512 + 1 * q.val = q.val; omega

/-- What point `t` writes back through window 1 is block `t` of the whole-array function. -/
theorem flushed1_eq (c : Dev nD) (t : Fin cfg0.N) :
    (dats m 0 c).flushed 1 t = ((cfg0.win 1).blk t).view.read (Elt Ideal) (maskArr (V m c main_v0)) := by
  show (cfg0.win 1).cut (grid0.coords t) ((dats m 0 c).after 1 t) = _
  rw [after0_1]
  unfold out0_1
  rw [View.canon_unit_zero hz3]
  simp only [View.ld_unit_zero (S := S1x512x512) hz3]
  funext j
  obtain ⟨p, q, rfl⟩ := blockIdx j
  refine (maskBlock (iblk m c 0 t) p q).trans ?_
  rw [iblk_img, View.read_apply, emb1]
  rfl

/-- An entry of the array lies in point `t`'s block exactly when each coordinate lies in the block's range. -/
theorem mem_blk1 (t : Fin cfg0.N) (i : S128x512x512.Idx) :
    i ∈ ((cfg0.win 1).blk t).view.set ↔ ∀ a : Fin 3, win0_1.index t a * S1x512x512.size a ≤ (i a).val
      ∧ (i a).val < win0_1.index t a * S1x512x512.size a + S1x512x512.size a := by
  show i ∈ ((View.whole main_v1_0).slice (win0_1.rect t)).set ↔ _
  rw [View.set_slice_whole, Rect.mem_set_unit]
  exact Iff.rfl

/-- Entry `(n, p, q)` lies in the block of point `n`. -/
theorem cover1 (i : S128x512x512.Idx) :
    ∃ t : Fin cfg0.N, (cfg0.win 1).flush t = true ∧ i ∈ ((cfg0.win 1).blk t).view.set := by
  have h0 : (i 0).val < 128 := (i 0).isLt
  have h1 : (i 1).val < 512 := (i 1).isLt
  have h2 : (i 2).val < 512 := (i 2).isLt
  obtain ⟨t, ht⟩ : ∃ t : Fin cfg0.N, t.val = (i 0).val := ⟨⟨(i 0).val, lt_of_lt_of_eq h0 (N_0 : cfg0.N = 128).symm⟩, rfl⟩
  obtain ⟨-, ⟨e0, e1, e2⟩, -, -⟩ := idx_facts t
  refine ⟨t, flush0_1 t, (mem_blk1 t i).mpr fun a => ?_⟩
  match a with
  | ⟨0, _⟩ => show win0_1.index t 0 * 1 ≤ (i 0).val ∧ (i 0).val < win0_1.index t 0 * 1 + 1; omega
  | ⟨1, _⟩ => show win0_1.index t 1 * 512 ≤ (i 1).val ∧ (i 1).val < win0_1.index t 1 * 512 + 512; omega
  | ⟨2, _⟩ => show win0_1.index t 2 * 512 ≤ (i 2).val ∧ (i 2).val < win0_1.index t 2 * 512 + 512; omega

/-- The array of window 1 after the run. -/
theorem final1 (c : Dev nD) : (dats m 0 c).arrAt 1 cfg0.N = maskArr (V m c main_v0) :=
  (dats m 0 c).arrAt_eq_of_cover 1 (maskArr (V m c main_v0)) (fun t _ => flushed1_eq m c t) cover1

/-! ## Result window 2 -/

/-- Block `(0, p, q)` of window 2 at point `t` lies at `(t, p, q)` of its array. -/
theorem emb2 (t : Fin cfg0.N) (p q : Fin 512) :
    ((cfg0.win 2).blk t).view.emb (ix3 0 p q) = (ix3 ⟨t.val, lt128 t⟩ p q : S128x512x512.Idx) := by
  obtain ⟨-, -, ⟨e0, e1, e2⟩, -⟩ := idx_facts t
  funext a
  apply Fin.ext
  match a with
  | ⟨0, _⟩ => show win0_2.index t 0 * 1 + 1 * 0 = t.val; omega
  | ⟨1, _⟩ => show win0_2.index t 1 * 512 + 1 * p.val = p.val; omega
  | ⟨2, _⟩ => show win0_2.index t 2 * 512 + 1 * q.val = q.val; omega

/-- What point `t` writes back through window 2 is block `t` of the whole-array function. -/
theorem flushed2_eq (c : Dev nD) (t : Fin cfg0.N) :
    (dats m 0 c).flushed 2 t = ((cfg0.win 2).blk t).view.read (Elt Ideal) (keptArr (V m c main_v0)) := by
  show (cfg0.win 2).cut (grid0.coords t) ((dats m 0 c).after 2 t) = _
  rw [after0_2]
  unfold out0_2
  rw [View.canon_unit_zero hz3]
  simp only [View.ld_unit_zero (S := S1x512x512) hz3]
  funext j
  obtain ⟨p, q, rfl⟩ := blockIdx j
  refine (keptBlock (iblk m c 0 t) p q).trans ?_
  rw [iblk_img, View.read_apply, emb2]
  rfl

/-- An entry of the array lies in point `t`'s block exactly when each coordinate lies in the block's range. -/
theorem mem_blk2 (t : Fin cfg0.N) (i : S128x512x512.Idx) :
    i ∈ ((cfg0.win 2).blk t).view.set ↔ ∀ a : Fin 3, win0_2.index t a * S1x512x512.size a ≤ (i a).val
      ∧ (i a).val < win0_2.index t a * S1x512x512.size a + S1x512x512.size a := by
  show i ∈ ((View.whole main_v1_1).slice (win0_2.rect t)).set ↔ _
  rw [View.set_slice_whole, Rect.mem_set_unit]
  exact Iff.rfl

/-- Entry `(n, p, q)` lies in the block of point `n`. -/
theorem cover2 (i : S128x512x512.Idx) :
    ∃ t : Fin cfg0.N, (cfg0.win 2).flush t = true ∧ i ∈ ((cfg0.win 2).blk t).view.set := by
  have h0 : (i 0).val < 128 := (i 0).isLt
  have h1 : (i 1).val < 512 := (i 1).isLt
  have h2 : (i 2).val < 512 := (i 2).isLt
  obtain ⟨t, ht⟩ : ∃ t : Fin cfg0.N, t.val = (i 0).val := ⟨⟨(i 0).val, lt_of_lt_of_eq h0 (N_0 : cfg0.N = 128).symm⟩, rfl⟩
  obtain ⟨-, -, ⟨e0, e1, e2⟩, -⟩ := idx_facts t
  refine ⟨t, flush0_2 t, (mem_blk2 t i).mpr fun a => ?_⟩
  match a with
  | ⟨0, _⟩ => show win0_2.index t 0 * 1 ≤ (i 0).val ∧ (i 0).val < win0_2.index t 0 * 1 + 1; omega
  | ⟨1, _⟩ => show win0_2.index t 1 * 512 ≤ (i 1).val ∧ (i 1).val < win0_2.index t 1 * 512 + 512; omega
  | ⟨2, _⟩ => show win0_2.index t 2 * 512 ≤ (i 2).val ∧ (i 2).val < win0_2.index t 2 * 512 + 512; omega

/-- The array of window 2 after the run. -/
theorem final2 (c : Dev nD) : (dats m 0 c).arrAt 2 cfg0.N = keptArr (V m c main_v0) :=
  (dats m 0 c).arrAt_eq_of_cover 2 (keptArr (V m c main_v0)) (fun t _ => flushed2_eq m c t) cover2

/-! ## Result window 3 -/

/-- Block `(0, p, q)` of window 3 at point `t` lies at `(t, p, q)` of its array. -/
theorem emb3 (t : Fin cfg0.N) (p q : Fin 512) :
    ((cfg0.win 3).blk t).view.emb (ix3 0 p q) = (ix3 ⟨t.val, lt128 t⟩ p q : S128x512x512.Idx) := by
  obtain ⟨-, -, -, ⟨e0, e1, e2⟩⟩ := idx_facts t
  funext a
  apply Fin.ext
  match a with
  | ⟨0, _⟩ => show win0_3.index t 0 * 1 + 1 * 0 = t.val; omega
  | ⟨1, _⟩ => show win0_3.index t 1 * 512 + 1 * p.val = p.val; omega
  | ⟨2, _⟩ => show win0_3.index t 2 * 512 + 1 * q.val = q.val; omega

/-- What point `t` writes back through window 3 is block `t` of the whole-array function. -/
theorem flushed3_eq (c : Dev nD) (t : Fin cfg0.N) :
    (dats m 0 c).flushed 3 t = ((cfg0.win 3).blk t).view.read (Elt Ideal) (relArr (V m c main_v0)) := by
  show (cfg0.win 3).cut (grid0.coords t) ((dats m 0 c).after 3 t) = _
  rw [after0_3]
  unfold out0_3
  rw [View.canon_unit_zero hz3]
  simp only [View.ld_unit_zero (S := S1x512x512) hz3]
  funext j
  obtain ⟨p, q, rfl⟩ := blockIdx j
  refine (relBlock (iblk m c 0 t) p q).trans ?_
  rw [iblk_img, View.read_apply, emb3]
  rfl

/-- An entry of the array lies in point `t`'s block exactly when each coordinate lies in the block's range. -/
theorem mem_blk3 (t : Fin cfg0.N) (i : S128x512x512.Idx) :
    i ∈ ((cfg0.win 3).blk t).view.set ↔ ∀ a : Fin 3, win0_3.index t a * S1x512x512.size a ≤ (i a).val
      ∧ (i a).val < win0_3.index t a * S1x512x512.size a + S1x512x512.size a := by
  show i ∈ ((View.whole main_v1_2).slice (win0_3.rect t)).set ↔ _
  rw [View.set_slice_whole, Rect.mem_set_unit]
  exact Iff.rfl

/-- Entry `(n, p, q)` lies in the block of point `n`. -/
theorem cover3 (i : S128x512x512.Idx) :
    ∃ t : Fin cfg0.N, (cfg0.win 3).flush t = true ∧ i ∈ ((cfg0.win 3).blk t).view.set := by
  have h0 : (i 0).val < 128 := (i 0).isLt
  have h1 : (i 1).val < 512 := (i 1).isLt
  have h2 : (i 2).val < 512 := (i 2).isLt
  obtain ⟨t, ht⟩ : ∃ t : Fin cfg0.N, t.val = (i 0).val := ⟨⟨(i 0).val, lt_of_lt_of_eq h0 (N_0 : cfg0.N = 128).symm⟩, rfl⟩
  obtain ⟨-, -, -, ⟨e0, e1, e2⟩⟩ := idx_facts t
  refine ⟨t, flush0_3 t, (mem_blk3 t i).mpr fun a => ?_⟩
  match a with
  | ⟨0, _⟩ => show win0_3.index t 0 * 1 ≤ (i 0).val ∧ (i 0).val < win0_3.index t 0 * 1 + 1; omega
  | ⟨1, _⟩ => show win0_3.index t 1 * 512 ≤ (i 1).val ∧ (i 1).val < win0_3.index t 1 * 512 + 512; omega
  | ⟨2, _⟩ => show win0_3.index t 2 * 512 ≤ (i 2).val ∧ (i 2).val < win0_3.index t 2 * 512 + 512; omega

/-- The array of window 3 after the run. -/
theorem final3 (c : Dev nD) : (dats m 0 c).arrAt 3 cfg0.N = relArr (V m c main_v0) :=
  (dats m 0 c).arrAt_eq_of_cover 3 (relArr (V m c main_v0)) (fun t _ => flushed3_eq m c t) cover3

/-! ## The reshapes around the region -/

/-- The operand the region finds is the argument with batch and channel merged into one axis. -/
theorem V_main_v0 (c : Dev nD) : (V m c main_v0 : S128x512x512.Idx → EReal)
    = shapeCast S128x512x512 (m ((c : Thread nD τ).loc main_arg0)) shapeCasts_S32x4x512x512_S128x512x512 := by
  show StableHlo.after hostOps0 (fun b => m (c, b)) (Proc.devRef .tc main_v0) = _
  after_results
  rfl

/-- Merging batch and channel: image `4 b + c` of the merged array is image `(b, c)`. -/
theorem merge_apply {α : Type} (a4 : S32x4x512x512.Idx → α) (h : S32x4x512x512.ShapeCasts S128x512x512)
    (b : Fin 32) (c : Fin 4) (p q : Fin 512) (hn : 4 * b.val + c.val < 128) :
    shapeCast S128x512x512 a4 h (ix3 ⟨4 * b.val + c.val, hn⟩ p q) = a4 (ix4 b c p q) := by
  refine shapeCast_apply a4 h _ _ ?_
  rw [Shape.rowMajor_val_four, Shape.rowMajor_val_three]
  show ((b.val * 4 + c.val) * 512 + p.val) * 512 + q.val = ((4 * b.val + c.val) * 512 + p.val) * 512 + q.val
  omega

/-- Splitting the merged axis again: entry `(b, c, p, q)` is entry `(4 b + c, p, q)`. -/
theorem split_apply {α : Type} (a3 : S128x512x512.Idx → α) (h : S128x512x512.ShapeCasts S32x4x512x512)
    (b : Fin 32) (c : Fin 4) (p q : Fin 512) (hn : 4 * b.val + c.val < 128) :
    shapeCast S32x4x512x512 a3 h (ix4 b c p q) = a3 (ix3 ⟨4 * b.val + c.val, hn⟩ p q) := by
  refine shapeCast_apply a3 h _ _ ?_
  rw [Shape.rowMajor_val_four, Shape.rowMajor_val_three]
  show ((4 * b.val + c.val) * 512 + p.val) * 512 + q.val = ((b.val * 4 + c.val) * 512 + p.val) * 512 + q.val
  omega

/-- Image `4 b + c` of the operand is image `(b, c)` of the argument. -/
theorem imgN_merge (c : Dev nD) (b : Fin 32) (ch : Fin 4) (hn : 4 * b.val + ch.val < 128) :
    imgN (V m c main_v0) ⟨4 * b.val + ch.val, hn⟩ = imgAt (m ((c : Thread nD τ).loc main_arg0)) b ch := by
  funext p q
  show (V m c main_v0 : S128x512x512.Idx → EReal) (ix3 ⟨4 * b.val + ch.val, hn⟩ p q) = _
  rw [V_main_v0, merge_apply]

/-- The arrays the lines after the region find are the run's final arrays. -/
theorem arr1 (c : Dev nD) : Pipeline.withArrays (cfgs 0).spec c (V0 m c) (fun w => (dats m 0 c).arrAt w (cfgs 0).N)
    (Proc.tc.devRef main_v1_0) = maskArr (V m c main_v0) :=
  (Pipeline.withArrays_arr spec0 launch0.win.arr_inj c _ _ 1).trans (final1 m c)
theorem arr2 (c : Dev nD) : Pipeline.withArrays (cfgs 0).spec c (V0 m c) (fun w => (dats m 0 c).arrAt w (cfgs 0).N)
    (Proc.tc.devRef main_v1_1) = keptArr (V m c main_v0) :=
  (Pipeline.withArrays_arr spec0 launch0.win.arr_inj c _ _ 2).trans (final2 m c)
theorem arr3 (c : Dev nD) : Pipeline.withArrays (cfgs 0).spec c (V0 m c) (fun w => (dats m 0 c).arrAt w (cfgs 0).N)
    (Proc.tc.devRef main_v1_2) = relArr (V m c main_v0) :=
  (Pipeline.withArrays_arr spec0 launch0.win.arr_inj c _ _ 3).trans (final3 m c)

/-! ## The lines after the region -/

/-- A one-bit word made a float (one or zero) and compared with zero for inequality gives the bit back. -/
theorem une_sitofp_bit (x : BitVec 1) :
    Ideal.cmp .une (FloatOps.sitofp (F := Ideal) .f32 (x.setWidth 32)) (Ideal.ofBits .f32 0x00000000#32) = x := by
  have hz : Ideal.ofBits .f32 0x00000000#32 = (0 : EReal) := by simp [Ideal.ofBits, Ideal.ieee]
  rw [hz]
  by_cases h : x = 1#1
  · subst h
    have e : FloatOps.sitofp (F := Ideal) .f32 ((1#1 : BitVec 1).setWidth 32) = (1 : EReal) := by
      show (((((1#1 : BitVec 1).setWidth 32).toInt : ℤ) : ℝ) : EReal) = 1
      rw [show ((1#1 : BitVec 1).setWidth 32).toInt = 1 from by decide]
      norm_num
    rw [e]
    simp [Ideal.cmp]
  · obtain rfl : x = 0#1 := eq_zero_of_ne_one h
    have e : FloatOps.sitofp (F := Ideal) .f32 ((0#1 : BitVec 1).setWidth 32) = (0 : EReal) := by
      show (((((0#1 : BitVec 1).setWidth 32).toInt : ℤ) : ℝ) : EReal) = 0
      rw [show ((0#1 : BitVec 1).setWidth 32).toInt = 0 from by decide]
      norm_num
    rw [e]
    simp [Ideal.cmp]

/-- The first result: the float mask compared with zero and split back into batch and channel is the peak mask. -/
theorem tail5 (c : Dev nD) : (Pipeline.afterTail₀ cfgs (dats m) 0 (V0 m) [hostOps1] c main_v5 : S32x4x512x512.Idx → BitVec 1)
    = maskOf (m ((c : Thread nD τ).loc main_arg0)) := by
  unfold Pipeline.afterTail₀
  show StableHlo.after hostOps1 _ (Proc.devRef .tc main_v5) = _
  after_results
  funext i
  obtain ⟨b, ch, p, q, rfl⟩ : ∃ (b : Fin 32) (ch : Fin 4) (p q : Fin 512), i = ix4 b ch p q := ⟨i 0, i 1, i 2, i 3, eq_ix4 i⟩
  have hn : 4 * b.val + ch.val < 128 := by have := b.isLt; have := ch.isLt; omega
  show shapeCast S32x4x512x512 (id (cmpf .une _ _)) shapeCasts_S128x512x512_S32x4x512x512 (ix4 b ch p q) = _
  rw [arr1, split_apply _ _ b ch p q hn]
  show Ideal.cmp .une (FloatOps.sitofp (F := Ideal) .f32 ((peak (imgN (V m c main_v0) ⟨4 * b.val + ch.val, hn⟩) p q).setWidth 32))
    (Ideal.ofBits .f32 0x00000000#32) = peak (imgAt _ b ch) p q
  rw [une_sitofp_bit, imgN_merge]

/-- The second result: the kept values, split back into batch and channel. -/
theorem tail6 (c : Dev nD) : (Pipeline.afterTail₀ cfgs (dats m) 0 (V0 m) [hostOps1] c main_v6 : S32x4x512x512.Idx → EReal)
    = keptOf (m ((c : Thread nD τ).loc main_arg0)) := by
  unfold Pipeline.afterTail₀
  show StableHlo.after hostOps1 _ (Proc.devRef .tc main_v6) = _
  after_results
  funext i
  obtain ⟨b, ch, p, q, rfl⟩ : ∃ (b : Fin 32) (ch : Fin 4) (p q : Fin 512), i = ix4 b ch p q := ⟨i 0, i 1, i 2, i 3, eq_ix4 i⟩
  have hn : 4 * b.val + ch.val < 128 := by have := b.isLt; have := ch.isLt; omega
  show shapeCast S32x4x512x512 _ shapeCasts_S128x512x512_S32x4x512x512 (ix4 b ch p q) = _
  rw [arr2, split_apply _ _ b ch p q hn]
  show kept (imgN (V m c main_v0) ⟨4 * b.val + ch.val, hn⟩) p q = kept (imgAt _ b ch) p q
  rw [imgN_merge]

/-- The third result: the relative scores, split back into batch and channel. -/
theorem tail7 (c : Dev nD) : (Pipeline.afterTail₀ cfgs (dats m) 0 (V0 m) [hostOps1] c main_v7 : S32x4x512x512.Idx → EReal)
    = relOf (m ((c : Thread nD τ).loc main_arg0)) := by
  unfold Pipeline.afterTail₀
  show StableHlo.after hostOps1 _ (Proc.devRef .tc main_v7) = _
  after_results
  funext i
  obtain ⟨b, ch, p, q, rfl⟩ : ∃ (b : Fin 32) (ch : Fin 4) (p q : Fin 512), i = ix4 b ch p q := ⟨i 0, i 1, i 2, i 3, eq_ix4 i⟩
  have hn : 4 * b.val + ch.val < 128 := by have := b.isLt; have := ch.isLt; omega
  show shapeCast S32x4x512x512 _ shapeCasts_S128x512x512_S32x4x512x512 (ix4 b ch p q) = _
  rw [arr3, split_apply _ _ b ch p q hn]
  show rel (imgN (V m c main_v0) ⟨4 * b.val + ch.val, hn⟩) p q = rel (imgAt _ b ch) p q
  rw [imgN_merge]

/-! ## The run -/

/-- Every weakly fair execution of the idealized kernel ends with its three results at the peak mask, the kept values and
    the relative scores of the argument, the argument unchanged. -/
theorem run : θ_run defs (onTc (τ := τ) (main (F := Ideal))) ⟨m, fun _ => 0, ρ⟩ fun r => ∀ c : Dev nD,
      r.2.mem ((c : Thread nD τ).loc main_v5) = maskOf (m ((c : Thread nD τ).loc main_arg0))
      ∧ r.2.mem ((c : Thread nD τ).loc main_v6) = keptOf (m ((c : Thread nD τ).loc main_arg0))
      ∧ r.2.mem ((c : Thread nD τ).loc main_v7) = relOf (m ((c : Thread nD τ).loc main_arg0))
      ∧ r.2.mem ((c : Thread nD τ).loc main_arg0) = m ((c : Thread nD τ).loc main_arg0) :=
  (θ_run defs _ _).mono (fun r h c =>
    ⟨((h c).2 main_v5 (Pipeline.mem_restRefs_of main_v5 (by decide) (by decide))).trans (tail5 m c),
     ((h c).2 main_v6 (Pipeline.mem_restRefs_of main_v6 (by decide) (by decide))).trans (tail6 m c),
     ((h c).2 main_v7 (Pipeline.mem_restRefs_of main_v7 (by decide) (by decide))).trans (tail7 m c),
     ((h c).2 main_arg0 (Pipeline.mem_restRefs_of main_arg0 (by decide) (by decide))).trans (W_main_arg0 m (dats m) c)⟩)
    (run_main m ρ)

end Cert.KernelIdeal.Arrays

end
-- ==== Proof.RefStages.lean ====
/-
  The reference's stages, entry by entry, on the extended reals: its window maximum and its maximum over each image are
  the neighbourhood's and the image's maxima, by their upper bounds; its three results are then the peak mask, the kept
  values and the relative scores of the image at `(b, c)`.
-/
import proofs.«149638_j37005438222881_1_alg».proof.Proof.Gen.ReferenceIdeal.Read
import proofs.«149638_j37005438222881_1_alg».proof.Proof.WindowMax
import Idealize.ShloMosaic.Lib.ValueIdx
import Idealize.ShloMosaic.PureOps.Ideal.Laws

noncomputable section

namespace Cert.ReferenceIdeal.Stages

open Idealize.ShloMosaic Idealize.ShloMosaic.ValueIdx Cert.ReferenceIdeal Cert.ReferenceIdeal.Read Cert.Peaks

/-- The window's extents: one batch, one channel, seven rows, seven columns. -/
abbrev W77 : Shape := ⟨4, ![1, 1, 7, 7]⟩

theorem init_bot : val_main_v0 (F := Ideal) (Shape.Idx.first Gen.h_S_) = (⊥ : EReal) := by
  rw [val_main_v0_apply, val_main_cst_apply]
  exact negInf

theorem init0_bot : val_main_cst_0 (F := Ideal) (Shape.Idx.first Gen.h_S_) = (⊥ : EReal) := by
  rw [val_main_cst_0_apply]
  exact negInf

/-- The window fold at `(b, c, p, q)` is below `M` exactly when every entry of the same image within distance three
    of `(p, q)` is: a window position `(0, 0, e, d)` reads the entry at `(p + e − 3, q + d − 3)` when that lies in
    the image, and the bottom element otherwise. -/
theorem window_le_iff (x0 : S32x4x512x512.Idx → EReal) (b : Fin 32) (c : Fin 4) (p q : Fin 512) (M : EReal) :
    val_main_v1 (F := Ideal) x0 (ix4 b c p q) ≤ M
      ↔ ∀ p' q' : Fin 512, Near p.val p'.val → Near q.val q'.val → x0 (ix4 b c p' q') ≤ M := by
  have hpp := p.isLt
  have hqq := q.isLt
  have hbb := b.isLt
  have hcc := c.isLt
  unfold val_main_v1 Host.reduceWindow
  dsimp only
  rw [foldl_maximumf_le_iff, init_bot]
  refine ⟨fun h p' q' hp hq => ?_, fun h => ⟨bot_le, fun n _ => ?_⟩⟩
  · obtain ⟨hp1, hp2⟩ := hp
    obtain ⟨hq1, hq2⟩ := hq
    have hp' := p'.isLt
    have hq' := q'.isLt
    have h1 := h.2 (W77.rowMajor (ix4 0 0 ⟨p'.val + 3 - p.val, by omega⟩ ⟨q'.val + 3 - q.val, by omega⟩)) (List.mem_finRange _)
    simp only [Equiv.symm_apply_apply] at h1
    split at h1
    · next hin =>
      refine le_of_eq_of_le (congrArg x0 ?_) h1
      funext a
      match a with
      | ⟨0, _⟩ => exact Fin.ext (by show b.val = b.val * 1 + 0 - 0; omega)
      | ⟨1, _⟩ => exact Fin.ext (by show c.val = c.val * 1 + 0 - 0; omega)
      | ⟨2, _⟩ => exact Fin.ext (by show p'.val = p.val * 1 + (p'.val + 3 - p.val) - 3; omega)
      | ⟨3, _⟩ => exact Fin.ext (by show q'.val = q.val * 1 + (q'.val + 3 - q.val) - 3; omega)
    · next hnot =>
      exact absurd (fun a => match a with
        | ⟨0, _⟩ => by show 0 ≤ b.val * 1 + 0 ∧ b.val * 1 + 0 - 0 < 32; omega
        | ⟨1, _⟩ => by show 0 ≤ c.val * 1 + 0 ∧ c.val * 1 + 0 - 0 < 4; omega
        | ⟨2, _⟩ => by show 3 ≤ p.val * 1 + (p'.val + 3 - p.val) ∧ p.val * 1 + (p'.val + 3 - p.val) - 3 < 512; omega
        | ⟨3, _⟩ => by show 3 ≤ q.val * 1 + (q'.val + 3 - q.val) ∧ q.val * 1 + (q'.val + 3 - q.val) - 3 < 512; omega) hnot
  · let w : W77.Idx := W77.rowMajor.symm n
    split
    · next hin =>
      have h2 : 3 ≤ p.val * 1 + (w 2).val ∧ p.val * 1 + (w 2).val - 3 < 512 := hin 2
      have h3 : 3 ≤ q.val * 1 + (w 3).val ∧ q.val * 1 + (w 3).val - 3 < 512 := hin 3
      have hw0 : (w 0).val < 1 := (w 0).isLt
      have hw1 : (w 1).val < 1 := (w 1).isLt
      have hw2 : (w 2).val < 7 := (w 2).isLt
      have hw3 : (w 3).val < 7 := (w 3).isLt
      refine le_of_eq_of_le (congrArg x0 ?_) (h ⟨p.val + (w 2).val - 3, by omega⟩ ⟨q.val + (w 3).val - 3, by omega⟩
        ⟨by simp only; omega, by simp only; omega⟩ ⟨by simp only; omega, by simp only; omega⟩)
      funext a
      match a with
      | ⟨0, _⟩ => exact Fin.ext (by show b.val * 1 + (w 0).val - 0 = b.val; omega)
      | ⟨1, _⟩ => exact Fin.ext (by show c.val * 1 + (w 1).val - 0 = c.val; omega)
      | ⟨2, _⟩ => exact Fin.ext (by show p.val * 1 + (w 2).val - 3 = p.val + (w 2).val - 3; omega)
      | ⟨3, _⟩ => exact Fin.ext (by show q.val * 1 + (w 3).val - 3 = q.val + (w 3).val - 3; omega)
    · exact bot_le

/-- The reduction over the two image axes at `(b, c)` is below `M` exactly when every entry of that image is. -/
theorem total_le_iff (x0 : S32x4x512x512.Idx → EReal) (b : Fin 32) (c : Fin 4) (M : EReal) :
    val_main_v2 (F := Ideal) x0 (ix2 b c) ≤ M ↔ ∀ p q : Fin 512, x0 (ix4 b c p q) ≤ M := by
  unfold val_main_v2
  rw [Host.reduce_eq_fold, fold_maximumf_le_iff, init0_bot]
  simp only [bot_le, true_and, Finset.mem_filter, Finset.mem_univ]
  constructor
  · intro h p q
    refine h (ix4 b c p q) ?_
    funext a
    match a with
    | ⟨0, _⟩ => rfl
    | ⟨1, _⟩ => rfl
  · intro h i hi
    obtain ⟨b', c', p, q, rfl⟩ : ∃ (b' : Fin 32) (c' : Fin 4) (p q : Fin 512), i = ix4 b' c' p q :=
      ⟨i 0, i 1, i 2, i 3, eq_ix4 i⟩
    have hb : b' = b := congrArg (fun j : S32x4.Idx => j 0) hi
    have hc : c' = c := congrArg (fun j : S32x4.Idx => j 1) hi
    subst hb hc
    exact h p q

theorem refPool (x0 : S32x4x512x512.Idx → EReal) (b : Fin 32) (c : Fin 4) (p q : Fin 512) :
    val_main_v1 (F := Ideal) x0 (ix4 b c p q) = pool (imgAt x0 b c) p q :=
  eq_of_forall_ge_iff fun M => by rw [window_le_iff, pool_le_iff]

theorem refTop (x0 : S32x4x512x512.Idx → EReal) (b : Fin 32) (c : Fin 4) :
    val_main_v2 (F := Ideal) x0 (ix2 b c) = top (imgAt x0 b c) :=
  eq_of_forall_ge_iff fun M => by rw [total_le_iff, top_le_iff]

/-- The broadcast of the per-image maximum reads, at `(b, c, p, q)`, the entry `(b, c)`. -/
theorem idx_bc (b : Fin 32) (c : Fin 4) (p q : Fin 512) :
    idx_main_v3 (idx_main_v10 (ix4 b c p q : S32x4x512x512.Idx)) = ix2 b c := by
  funext a
  match a with
  | ⟨0, _⟩ => rfl
  | ⟨1, _⟩ => rfl

theorem idx_bc' (b : Fin 32) (c : Fin 4) (p q : Fin 512) :
    idx_main_v3 (idx_main_v14 (ix4 b c p q : S32x4x512x512.Idx)) = ix2 b c := idx_bc b c p q

/-- The reference's mask at `(b, c, p, q)` is the peak mask of the image at `(b, c)`. -/
theorem refMask (x0 : S32x4x512x512.Idx → EReal) (b : Fin 32) (c : Fin 4) (p q : Fin 512) :
    val_main_v12 (F := Ideal) x0 (ix4 b c p q) = peak (imgAt x0 b c) p q := by
  rw [val_main_v12_apply, val_main_v7_apply, val_main_v4_apply, val_main_v6_apply, val_main_v11_apply, val_main_v10_apply,
    val_main_v9_apply, val_main_v8_apply, val_main_v3_apply, val_main_v5_apply, val_main_cst_1_apply, val_main_cst_2_apply,
    idx_bc, refPool, refTop]
  rfl

/-- Its second result is the kept value. -/
theorem refKept (x0 : S32x4x512x512.Idx → EReal) (b : Fin 32) (c : Fin 4) (p q : Fin 512) :
    val_main_v13 (F := Ideal) x0 (ix4 b c p q) = kept (imgAt x0 b c) p q := by
  rw [val_main_v13_apply, refMask, val_main_call0_v0_apply, val_main_cst_3_apply]
  rfl

/-- Its third result is the relative score. -/
theorem refRel (x0 : S32x4x512x512.Idx → EReal) (b : Fin 32) (c : Fin 4) (p q : Fin 512) :
    val_main_v15 (F := Ideal) x0 (ix4 b c p q) = rel (imgAt x0 b c) p q := by
  rw [val_main_v15_apply, refKept, val_main_v14_apply, val_main_v3_apply, idx_bc', refTop]
  rfl

/-! ## The three results as whole arrays -/

theorem ref_mask (x0 : S32x4x512x512.Idx → EReal) : val_main_v12 (F := Ideal) x0 = maskOf x0 := by
  funext i
  obtain ⟨b, c, p, q, rfl⟩ : ∃ (b : Fin 32) (c : Fin 4) (p q : Fin 512), i = ix4 b c p q := ⟨i 0, i 1, i 2, i 3, eq_ix4 i⟩
  exact refMask x0 b c p q

theorem ref_kept (x0 : S32x4x512x512.Idx → EReal) : val_main_v13 (F := Ideal) x0 = keptOf x0 := by
  funext i
  obtain ⟨b, c, p, q, rfl⟩ : ∃ (b : Fin 32) (c : Fin 4) (p q : Fin 512), i = ix4 b c p q := ⟨i 0, i 1, i 2, i 3, eq_ix4 i⟩
  exact refKept x0 b c p q

theorem ref_rel (x0 : S32x4x512x512.Idx → EReal) : val_main_v15 (F := Ideal) x0 = relOf x0 := by
  funext i
  obtain ⟨b, c, p, q, rfl⟩ : ∃ (b : Fin 32) (c : Fin 4) (p q : Fin 512), i = ix4 b c p q := ⟨i 0, i 1, i 2, i 3, eq_ix4 i⟩
  exact refRel x0 b c p q

end Cert.ReferenceIdeal.Stages

end
-- ==== Proof.lean ====
/-
  Peak detection on belief maps: a tiled kernel against the whole-array reference, equal over the extended reals.

  For every one of the 32 × 4 images `x` of 512 × 512 entries both programs compute
    pool(p, q) = the maximum of `x` over the 7 × 7 neighbourhood of `(p, q)`, the image padded with −∞,
    top        = the maximum of the whole image,
    mask(p, q) = (pool(p, q) = x(p, q)) ∧ (x(p, q) > t_abs) ∧ (x(p, q) > t_rel · top),
    kept(p, q) = x(p, q) where the mask is set, 0 elsewhere,
    rel(p, q)  = kept(p, q) / top,
  with the same two threshold words `t_abs`, `t_rel` on both sides, and return mask, kept and rel.

  The kernel takes the neighbourhood's maximum separably — seven column shifts of the padded rows, then seven row shifts
  of the padded result — and the image's maximum row by row and then over the rows; the reference takes one fold over
  the 49 window positions and one over all entries of the image. A maximum of finitely many extended reals lies below
  `M` exactly when each of them does, and −∞ is the bottom element, so each pair of maxima has the same upper bounds:
  those of the image entries within distance three of `(p, q)` in each coordinate, respectively of all entries
  (Proof/WindowMax.lean). No other law is used; in particular finiteness of the input is not. The kernel returns its mask
  as a float (one or zero) which the lines after the call compare with zero: the bit comes back.

  Proof/BlockValues.lean reads one block through the kernel's body entry by entry; Proof/KernelArrays.lean lays the 128
  blocks over the three result arrays and follows the reshapes around the call; Proof/RefStages.lean reads the
  reference's stages entry by entry. Here the two runs are put side by side.
-/
import proofs.«149638_j37005438222881_1_alg».proof.Defs
import proofs.«149638_j37005438222881_1_alg».proof.Proof.Gen.Kernel
import proofs.«149638_j37005438222881_1_alg».proof.Proof.Gen.Kernel.Skeleton
import proofs.«149638_j37005438222881_1_alg».proof.Proof.Gen.Kernel.Launch
import proofs.«149638_j37005438222881_1_alg».proof.Proof.Gen.Kernel.Points
import proofs.«149638_j37005438222881_1_alg».proof.Proof.Gen.Kernel.Frame
import proofs.«149638_j37005438222881_1_alg».proof.Proof.Gen.KernelIdeal
import proofs.«149638_j37005438222881_1_alg».proof.Proof.Gen.KernelIdeal.Skeleton
import proofs.«149638_j37005438222881_1_alg».proof.Proof.Gen.KernelIdeal.Launch
import proofs.«149638_j37005438222881_1_alg».proof.Proof.Gen.KernelIdeal.Points
import proofs.«149638_j37005438222881_1_alg».proof.Proof.Gen.KernelIdeal.Frame
import proofs.«149638_j37005438222881_1_alg».proof.Proof.Gen.ReferenceIdeal
import proofs.«149638_j37005438222881_1_alg».proof.Proof.Gen.ReferenceIdeal.Run
import proofs.«149638_j37005438222881_1_alg».proof.Proof.Gen.ReferenceIdeal.Read
import proofs.«149638_j37005438222881_1_alg».proof.Proof.Gen.Pre_finite_inputs
import proofs.«149638_j37005438222881_1_alg».proof.Proof.KernelArrays
import proofs.«149638_j37005438222881_1_alg».proof.Proof.RefStages
import Idealize.ShloMosaic.Adequacy
import Idealize.ShloMosaic.Init

noncomputable section

namespace Cert.Proof

open Idealize.ShloMosaic Idealize.SL.Sem Cert.Peaks

/-- The word-level kernel runs and keeps its argument. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its argument: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both idealized programs end with the peak mask, the kept values and the relative scores of the argument. -/
theorem algebraic : Cert.algebraic_KernelIdeal_ReferenceIdeal := by
  intro m ρ m' ρ' _ hagree
  refine ⟨fun c => maskOf (m ((c.tc : Thread Cert.KernelIdeal.nD Cert.KernelIdeal.τ).loc Cert.KernelIdeal.main_arg0)),
    fun c => keptOf (m ((c.tc : Thread Cert.KernelIdeal.nD Cert.KernelIdeal.τ).loc Cert.KernelIdeal.main_arg0)),
    fun c => relOf (m ((c.tc : Thread Cert.KernelIdeal.nD Cert.KernelIdeal.τ).loc Cert.KernelIdeal.main_arg0)),
    Cert.KernelIdeal.Arrays.run m ρ, ?_⟩
  refine (θ_run Cert.ReferenceIdeal.defs _ _).mono (fun _ h c => ?_) (Cert.ReferenceIdeal.Value.run (F := Ideal) m' ρ')
  obtain ⟨h1, h2, h3, h4⟩ := h c
  refine ⟨h1.trans ?_, h2.trans ?_, h3.trans ?_, h4⟩
  · exact (Cert.ReferenceIdeal.Read.val_main_v12_eq _).trans
      ((Cert.ReferenceIdeal.Stages.ref_mask _).trans (congrArg maskOf (hagree c)))
  · exact (Cert.ReferenceIdeal.Read.val_main_v13_eq _).trans
      ((Cert.ReferenceIdeal.Stages.ref_kept _).trans (congrArg keptOf (hagree c)))
  · exact (Cert.ReferenceIdeal.Read.val_main_v15_eq _).trans
      ((Cert.ReferenceIdeal.Stages.ref_rel _).trans (congrArg relOf (hagree c)))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
